-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32 : Shape := ⟨1, ![32]⟩
abbrev S1024x1024 : Shape := ⟨2, ![1024, 1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x1024x1024 .f32) (main_arg1 : FVec F S32x1024x1024 .f32) (main_arg2 : IVec S32 32) (main_arg3 : IVec S32 32) (main_arg4 : FVec F S1024x1024 .f32) (main_arg5 : FVec F S1024x2048 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg5
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x1024x1024 : Shape := ⟨3, ![32, 1024, 1024]⟩
abbrev S32 : Shape := ⟨1, ![32]⟩
abbrev S1024x1024 : Shape := ⟨2, ![1024, 1024]⟩
abbrev S1024x2048 : Shape := ⟨2, ![1024, 2048]⟩
abbrev S1x512x1024 : Shape := ⟨3, ![1, 512, 1024]⟩
abbrev S1x1024x1024 : Shape := ⟨3, ![1, 1024, 1024]⟩
abbrev S1 : Shape := ⟨1, ![1]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 2
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x1024x1024, .bf16⟩
  | .hbm, ⟨5, _⟩ => ⟨S32x1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S32x1024x1024, .f32⟩
  | .hbm, ⟨15, _⟩ => ⟨S32x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .smem, ⟨0, _⟩ => ⟨S32, .i32⟩
  | .local _ .smem, ⟨1, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 2], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  transposes_S1024x1024_S1024x1024_1_0 : S1024x1024.Transposes [1, 0] S1024x1024
  slices_S1024x2048_S1024x1024_0_0 : S1024x2048.Slices ![0, 0] S1024x1024
  slices_S1024x2048_S1024x1024_0_1024 : S1024x2048.Slices ![0, 1024] S1024x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S512x1024_d0_w32 : S512x1024.Iotas .tc 32 [0]
  iota_S512x1024_d1_w32 : S512x1024.Iotas .tc 32 [1]
  shapeCasts_S512x1024_S1x512x1024 : S512x1024.ShapeCasts S1x512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .bf16 = 32 ∨ (Rect.block (s := S32x1024x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .bf16 = 32 ∨ (Rect.block (s := S32x1024x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x1024x1024.size a
  hwx0_5 : ∀ i : grid0.Coords, EltTy.bits .f32 = 32 ∨ (Rect.block (s := S32x1024x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S32x1024x1024.size a
  hwx0_6 : ∀ i : grid0.Coords, EltTy.bits .f32 = 32 ∨ (Rect.block (s := S32x1024x1024) S1x512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev spec0_0 : Pipeline.WinSpec sig grid0.rank :=
  Pipeline.WinSpec.ofSpec (Memref.whole main_v0) S1x512x1024.size reads0_0 false false 2 stage0_0 sem0_0 nbuf0_0 hstage0_0

abbrev spec0_1 : Pipeline.WinSpec sig grid0.rank :=
  Pipeline.WinSpec.ofSpec (Memref.whole main_v1) S1x1024x1024.size reads0_1 false false 2 stage0_1 sem0_1 nbuf0_1 hstage0_1

abbrev spec0_2 : Pipeline.WinSpec sig grid0.rank :=
  Pipeline.WinSpec.ofSpec (Memref.whole main_v3) S1024x1024.size reads0_2 false true 1 stage0_2 sem0_2 nbuf0_2 hstage0_2

abbrev spec0_3 : Pipeline.WinSpec sig grid0.rank :=
  Pipeline.WinSpec.ofSpec (Memref.whole main_v6) S1024x1024.size reads0_3 false true 1 stage0_3 sem0_3 nbuf0_3 hstage0_3

abbrev spec0_4 : Pipeline.WinSpec sig grid0.rank :=
  Pipeline.WinSpec.ofSpec (Memref.whole main_v9) S1024x1024.size reads0_4 false true 1 stage0_4 sem0_4 nbuf0_4 hstage0_4

abbrev spec0_5 : Pipeline.WinSpec sig grid0.rank :=
  Pipeline.WinSpec.ofSpec (Memref.whole main_v10_0) S1x512x1024.size reads0_5 true false 2 stage0_5 sem0_5 nbuf0_5 hstage0_5

abbrev spec0_6 : Pipeline.WinSpec sig grid0.rank :=
  Pipeline.WinSpec.ofSpec (Memref.whole main_v10_1) S1x512x1024.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32 : Shape := ⟨1, ![32]⟩
abbrev S1024x1024 : Shape := ⟨2, ![1024, 1024]⟩
abbrev S1024x2048 : Shape := ⟨2, ![1024, 2048]⟩
abbrev S1024 : Shape := ⟨1, ![1024]⟩
abbrev S1x1024 : Shape := ⟨2, ![1, 1024]⟩
abbrev S32x1 : Shape := ⟨2, ![32, 1]⟩
abbrev S32x1024 : Shape := ⟨2, ![32, 1024]⟩
abbrev S32x1024x1 : Shape := ⟨3, ![32, 1024, 1]⟩
abbrev S32x1x1024 : Shape := ⟨3, ![32, 1, 1024]⟩
abbrev S_ : Shape := ⟨0, ![]⟩
abbrev S32x1024x2048 : Shape := ⟨3, ![32, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32, .i32⟩
  | .hbm, ⟨3, _⟩ => ⟨S32, .i32⟩
  | .hbm, ⟨4, _⟩ => ⟨S1024x1024, .f32⟩
  | .hbm, ⟨5, _⟩ => ⟨S1024x2048, .f32⟩
  | .hbm, ⟨6, _⟩ => ⟨S32x1024x1024, .f32⟩
  | .hbm, ⟨7, _⟩ => ⟨S32x1024x1024, .f32⟩
  | .hbm, ⟨8, _⟩ => ⟨S1024, .i32⟩
  | .hbm, ⟨9, _⟩ => ⟨S1x1024, .i32⟩
  | .hbm, ⟨10, _⟩ => ⟨S32x1, .i32⟩
  | .hbm, ⟨11, _⟩ => ⟨S32x1024, .i32⟩
  | .hbm, ⟨12, _⟩ => ⟨S32x1024, .i32⟩
  | .hbm, ⟨13, _⟩ => ⟨S32x1024, .i1⟩
  | .hbm, ⟨14, _⟩ => ⟨S1024, .i32⟩
  | .hbm, ⟨15, _⟩ => ⟨S1x1024, .i32⟩
  | .hbm, ⟨16, _⟩ => ⟨S32x1, .i32⟩
  | .hbm, ⟨17, _⟩ => ⟨S32x1024, .i32⟩
  | .hbm, ⟨18, _⟩ => ⟨S32x1024, .i32⟩
  | .hbm, ⟨19, _⟩ => ⟨S32x1024, .i1⟩
  | .hbm, ⟨20, _⟩ => ⟨S32x1024x1, .i1⟩
  | .hbm, ⟨21, _⟩ => ⟨S32x1x1024, .i1⟩
  | .hbm, ⟨22, _⟩ => ⟨S32x1024x1024, .i1⟩
  | .hbm, ⟨23, _⟩ => ⟨S32x1024x1024, .i1⟩
  | .hbm, ⟨24, _⟩ => ⟨S32x1024x1024, .i1⟩
  | .hbm, ⟨25, _⟩ => ⟨S_, .f32⟩
  | .hbm, ⟨26, _⟩ => ⟨S_, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S32x1024x1, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S_, .f32⟩
  | .hbm, ⟨39, _⟩ => ⟨S32x1024, .f32⟩
  | .hbm, ⟨40, _⟩ => ⟨S32x1024x1, .f32⟩
  | .hbm, ⟨41, _⟩ => ⟨S32x1024x1024, .f32⟩
  | .hbm, ⟨42, _⟩ => ⟨S32x1024x1024, .f32⟩
  | .hbm, ⟨43, _⟩ => ⟨S32x1024x1024, .f32⟩
  | .hbm, ⟨44, _⟩ => ⟨S32x1024x2048, .f32⟩
  | .hbm, ⟨45, _⟩ => ⟨S32x1024x1024, .f32⟩
  | .hbm, ⟨46, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S32_S32x1_0 : S32.BroadcastsInDim S32x1 (![0] : Fin 1 → Fin S32x1.rank)
  bcast_S1x1024_S32x1024_0_1 : S1x1024.BroadcastsInDim S32x1024 (![0, 1] : Fin 2 → Fin S32x1024.rank)
  bcast_S32x1_S32x1024_0_1 : S32x1.BroadcastsInDim S32x1024 (![0, 1] : Fin 2 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  concatenates_S32x1024x1024_S32x1024x1024_S32x1024x2048_d2 : Shape.Concatenates [S32x1024x1024, S32x1024x1024] S32x1024x2048 2
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x2048_S1024x2048_S32x1024x1024_2_1_01_0_n_n_wf : DotDims.WF S32x1024x2048 S1024x2048 S32x1024x1024 [2] [1] [0, 1] [0] [] []

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.KernelPieces.lean ====
/-
  What one run of the kernel body leaves in its two output tiles.

  The body ends each output with ONE store that covers the whole [1,512,1024] tile, so what the tile holds afterwards
  is that store's value: for the first output the tanh layer's value `k0_pay1` of the projected query, the attended
  context and the two output-weight blocks; for the second the masked scores `k0_pay5`. Both are functions of the five
  loaded blocks and of the two length words the body reads from the prefetched tables at the point's batch
  (`word`: the table's entry at the first grid coordinate).
-/
import proofs.«430534_j24120536335092_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The word the body reads from a length table: the table's entry at the point's batch. -/
def word (c : Dev nD) (M : Memref sig .tc .smem S32 .i32) (xt : TbBuf0 (F := F) c M) (i : grid0.Coords) : Elt F .i32 :=
  View.readAt (Elt F) M.view (Rect.unit (s := S32) (k0_off1 i) S1.size (k0_off1_inb i)).toLoadRect xt (Shape.Idx.first ((numel1_S1 : (Rect.unit (s := S32) (k0_off1 i) S1.size (k0_off1_inb i)).shape.numel = 1).symm ▸ Nat.one_pos))

/-- The second output's tile after the body: the masked scores. -/
theorem out6_eq (c : Dev nD) (i : grid0.Coords) (arg4 : Memref sig .tc .vmem S1x512x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x512x1024 .f32) (harg9 : arg9.IsWhole) (arg10 : Memref sig .tc .vmem S1x512x1024 .f32) (harg10 : arg10.IsWhole)
    (x0 : Vec F S1x512x1024 .bf16) (x1 : Vec F S1x1024x1024 .bf16) (x2 : Vec F S1024x1024 .bf16) (x3 : Vec F S1024x1024 .bf16) (x4 : Vec F S1024x1024 .bf16) (xt0 : TbBuf0 (F := F) c tbM0_0) (xt1 : TbBuf0 (F := F) c tbM0_1) :
    out0_A_6 c i arg4 harg4 arg5 harg5 arg6 harg6 arg7 harg7 arg8 harg8 arg9 harg9 arg10 harg10 x0 x1 x2 x3 x4 xt0 xt1 = k0_pay5 i (word c tbM0_0 xt0 i) (word c tbM0_1 xt1 i) x0 x2 x1 := by
  unfold out0_A_6
  rw [View.read_writes_eq_canon _ _ _ (cover0_A_6 c i arg4 harg4 arg5 harg5 arg6 harg6 arg7 harg7 arg8 harg8 arg9 harg9 arg10 harg10 x0 x1 x2 x3 x4 xt0 xt1)]
  unfold kernelRun0_A
  dsimp only
  sl_unfold_words
  rw [View.canon_unit_zero hz3]
  simp only [View.readAt_eq_ld, harg4.read_unread, harg5.read_unread, harg6.read_unread, harg7.read_unread, harg8.read_unread,
    View.ld_unit_zero (S := S1x512x1024) hz3, View.ld_unit_zero (S := S1x1024x1024) hz3, View.ld_unit_zero (S := S1024x1024) hz2]
  rfl

/-- The first output's tile after the body: the layer's output. -/
theorem out5_eq (c : Dev nD) (i : grid0.Coords) (arg4 : Memref sig .tc .vmem S1x512x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x512x1024 .f32) (harg9 : arg9.IsWhole) (arg10 : Memref sig .tc .vmem S1x512x1024 .f32) (harg10 : arg10.IsWhole)
    (x0 : Vec F S1x512x1024 .bf16) (x1 : Vec F S1x1024x1024 .bf16) (x2 : Vec F S1024x1024 .bf16) (x3 : Vec F S1024x1024 .bf16) (x4 : Vec F S1024x1024 .bf16) (xt0 : TbBuf0 (F := F) c tbM0_0) (xt1 : TbBuf0 (F := F) c tbM0_1) :
    out0_A_5 c i arg4 harg4 arg5 harg5 arg6 harg6 arg7 harg7 arg8 harg8 arg9 harg9 arg10 harg10 x0 x1 x2 x3 x4 xt0 xt1
      = k0_pay1 (k0_pay2 x0 x2) (k0_pay6 i (word c tbM0_0 xt0 i) (word c tbM0_1 xt1 i) x0 x2 x1) x3 x4 := by
  unfold out0_A_5
  rw [View.read_writes_eq_canon _ _ _ (cover0_A_5 c i arg4 harg4 arg5 harg5 arg6 harg6 arg7 harg7 arg8 harg8 arg9 harg9 arg10 harg10 x0 x1 x2 x3 x4 xt0 xt1)]
  unfold kernelRun0_A
  dsimp only
  sl_unfold_words
  rw [View.canon_unit_zero hz3]
  simp only [View.readAt_eq_ld, harg4.read_unread, harg5.read_unread, harg6.read_unread, harg7.read_unread, harg8.read_unread,
    View.ld_unit_zero (S := S1x512x1024) hz3, View.ld_unit_zero (S := S1x1024x1024) hz3, View.ld_unit_zero (S := S1024x1024) hz2]
  rfl

end Cert.KernelIdeal.Pieces

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KernelDots.lean ====
/-
  The kernel's matrix products at one entry.

  The kernel body multiplies [512,1024] tiles by [1024,1024] matrices in two arrangements, both into a zero
  accumulator, so at the ideal values each entry is a plain sum over the contracted coordinate:
    * rows by columns: entry (p, q) is  Σ_k  l[p,k] · r[k,q];
    * rows by rows (the right operand's SECOND axis is contracted): entry (p, q) is  Σ_k  l[p,k] · r[q,k].
  For each arrangement the four axis facts say which coordinate of an operand index comes from the result index and which
  from the contracted coordinate.
-/
import proofs.«430534_j24120536335092_2_alg».proof.Proof.Gen.KernelIdeal
import proofs.«430534_j24120536335092_2_alg».proof.Proof.LibOneAxisContraction

noncomputable section

namespace Cert.KernelIdeal.Dots

open Cert.KernelIdeal Cert.KernelIdeal.Gen Idealize.ShloMosaic Idealize.ShloMosaic.ValueIdx
open scoped BigOperators

/-! ## Rows by columns -/

theorem lhs_rc_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rc_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_rc_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_rc_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows by columns into a zero accumulator: entry (p, q) is the sum over k of l[p,k] · r[k,q]. -/
theorem matmul_rc_apply {φ₁ φ₂ : FTy} (l : FVec Ideal S512x1024 φ₁) (r : FVec Ideal S1024x1024 φ₂) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  refine Cert.Dots.matmul_zero_apply_of dot_S512x1024_S1024x1024_S512x1024_1_0_0_1_n_n 1024 rfl rfl none l r (ix2 p q)
    (fun k => ix2 p k) (fun k => ix2 k q) (fun k => ?_) (fun k => ?_)
  · have hk := contrEquiv1_symm_val dot_S512x1024_S1024x1024_S512x1024_1_0_0_1_n_n 1024 rfl rfl k
    exact funext fun a => Fin.ext (by
      match a with
      | ⟨0, _⟩ => exact lhs_rc_0 _ _
      | ⟨1, _⟩ => exact (lhs_rc_1 _ _).trans hk)
  · have hk := contrEquiv1_symm_val dot_S512x1024_S1024x1024_S512x1024_1_0_0_1_n_n 1024 rfl rfl k
    exact funext fun a => Fin.ext (by
      match a with
      | ⟨0, _⟩ => exact (rhs_rc_0 _ _).trans hk
      | ⟨1, _⟩ => exact rhs_rc_1 _ _)

/-! ## Rows by rows -/

theorem lhs_rr_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_rr_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_rr_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_rr_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Rows by rows into a zero accumulator: entry (p, q) is the sum over k of l[p,k] · r[q,k]. -/
theorem matmul_rr_apply {φ₁ φ₂ : FTy} (l : FVec Ideal S512x1024 φ₁) (r : FVec Ideal S1024x1024 φ₂) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  refine Cert.Dots.matmul_zero_apply_of dot_S512x1024_S1024x1024_S512x1024_1_1_0_0_n_n 1024 rfl rfl none l r (ix2 p q)
    (fun k => ix2 p k) (fun k => ix2 q k) (fun k => ?_) (fun k => ?_)
  · have hk := contrEquiv1_symm_val dot_S512x1024_S1024x1024_S512x1024_1_1_0_0_n_n 1024 rfl rfl k
    exact funext fun a => Fin.ext (by
      match a with
      | ⟨0, _⟩ => exact lhs_rr_0 _ _
      | ⟨1, _⟩ => exact (lhs_rr_1 _ _).trans hk)
  · have hk := contrEquiv1_symm_val dot_S512x1024_S1024x1024_S512x1024_1_1_0_0_n_n 1024 rfl rfl k
    exact funext fun a => Fin.ext (by
      match a with
      | ⟨0, _⟩ => exact rhs_rr_0 _ _
      | ⟨1, _⟩ => exact (rhs_rr_1 _ _).trans hk)

end Cert.KernelIdeal.Dots

end
-- ==== Proof.Spec.lean ====
/-
  Masked attention with an input and an output projection, entry by entry, as functions of the six argument arrays.

  For a batch `b`, a query row `i`, a context row `k` and a feature `d` (32 batches; 1024 rows, context rows and features):
    proj   b i e = Σ_d  query[b,i,d] · W_in[e,d]                     the projected query
    score  b i k = Σ_d  proj b i d · context[b,k,d]
    keep   b i k = (i < query_lengths[b]) and (k < context_lengths[b])   signed 32-bit comparisons, one bit
    masked b i k = score b i k where keep, else the fill value -1e9    (the SECOND result array)
    rowMax b i   = max_k masked b i k    (a fold of max from the word 0xFF800000, the bottom element)
    expo   b i k = exp (masked b i k - rowMax b i),   denom b i = Σ_k expo b i k,   weight = expo / denom
    mix    b i d = Σ_k  weight b i k · context[b,k,d]
    out    b i d = tanh ( Σ_{c<1024} mix b i c · W_out[d,c]  +  Σ_{c<1024} proj b i c · W_out[d,1024+c] )   (the FIRST result)
  All sums, products and quotients are those of the extended reals; nothing here needs an entry to be finite.

  The last line is written the way the kernel computes it, as two contractions over 1024 against the two halves of
  W_out's rows. The reference contracts the concatenation [mix, proj] (2048 long) against a whole row of W_out; the law
  `sum_two_halves` below says that a sum over 2048 positions is the sum over the first 1024 plus the sum over the
  last 1024, which holds in any commutative monoid, so also at infinite entries.
-/
import Idealize.ShloMosaic.Lib.ValueIdx
import Idealize.ShloMosaic.PureOps.Ideal.Laws

noncomputable section

namespace Cert.Attn

open Idealize.ShloMosaic Idealize.ShloMosaic.ValueIdx
open scoped BigOperators

/-- The shapes of the arguments: the two [32,1024,1024] arrays, the two length vectors, W_in and W_out. -/
abbrev A3 : Shape := ⟨3, ![32, 1024, 1024]⟩
abbrev A1 : Shape := ⟨1, ![32]⟩
abbrev A2 : Shape := ⟨2, ![1024, 1024]⟩
abbrev AW : Shape := ⟨2, ![1024, 2048]⟩

/-- Column `c` of the first half of a row of W_out, and column `1024 + c` of the second half. -/
abbrev lo (c : Fin 1024) : Fin 2048 := ⟨c.val, by omega⟩
abbrev hi (c : Fin 1024) : Fin 2048 := ⟨1024 + c.val, by omega⟩

/-- The value masked-out scores are replaced by: the f32 word of -1e9, the same word in both programs. -/
def fill : EReal := Ideal.ofBits .f32 0xCE6E6B28#32

/-- Where a row maximum starts from: the f32 word of minus infinity. -/
def maxInit : EReal := Ideal.ofBits .f32 0xFF800000#32

section
variable (Q C : A3.Idx → EReal) (ql cl : A1.Idx → BitVec 32) (Win : A2.Idx → EReal) (Wout : AW.Idx → EReal)

/-- The projected query. -/
def proj (b : Fin 32) (i e : Fin 1024) : EReal := ∑ d : Fin 1024, Q (ix3 b i d) * Win (ix2 e d)

/-- The raw score of query row `i` against context row `k`. -/
def score (b : Fin 32) (i k : Fin 1024) : EReal := ∑ d : Fin 1024, proj Q Win b i d * C (ix3 b k d)

/-- The length mask: row `i` is below the batch's query length and column `k` below its context length. -/
def keep (b : Fin 32) (i k : Fin 1024) : BitVec 1 :=
  IntOp.andi (IntOp.cmpi .slt (BitVec.ofNat 32 i.val) (ql (ix1 b))) (IntOp.cmpi .slt (BitVec.ofNat 32 k.val) (cl (ix1 b)))

/-- The masked score: the second result. -/
def masked (b : Fin 32) (i k : Fin 1024) : EReal := Scalar.select (keep ql cl b i k) (score Q C Win b i k) fill

/-- The maximum of a row of masked scores. -/
def rowMax (b : Fin 32) (i : Fin 1024) : EReal :=
  (Finset.univ : Finset (Fin 1024)).fold max maxInit (fun k => masked Q C ql cl Win b i k)

/-- The softmax numerator, denominator and weight. -/
def expo (b : Fin 32) (i k : Fin 1024) : EReal := Ideal.exp (masked Q C ql cl Win b i k - rowMax Q C ql cl Win b i)
def denom (b : Fin 32) (i : Fin 1024) : EReal := ∑ k : Fin 1024, expo Q C ql cl Win b i k
def weight (b : Fin 32) (i k : Fin 1024) : EReal := Ideal.div (expo Q C ql cl Win b i k) (denom Q C ql cl Win b i)

/-- The attended context. -/
def mix (b : Fin 32) (i d : Fin 1024) : EReal := ∑ k : Fin 1024, weight Q C ql cl Win b i k * C (ix3 b k d)

/-- The output: the first result. -/
def out (b : Fin 32) (i d : Fin 1024) : EReal :=
  Ideal.tanh ((∑ c : Fin 1024, mix Q C ql cl Win b i c * Wout (ix2 d (lo c)))
    + ∑ c : Fin 1024, proj Q Win b i c * Wout (ix2 d (hi c)))

end

/-- A sum over 2048 positions is the sum over the first 1024 plus the sum over the last 1024. -/
theorem sum_two_halves {M : Type*} [AddCommMonoid M] (f : Fin 2048 → M) :
    ∑ c : Fin 2048, f c = (∑ c : Fin 1024, f (lo c)) + ∑ c : Fin 1024, f (hi c) := by
  have h := Fin.sum_univ_add (a := 1024) (b := 1024) (fun c : Fin (1024 + 1024) => f ⟨c.val, by have := c.isLt; omega⟩)
  refine Eq.trans ?_ (h.trans ?_)
  · rfl
  · congr 1

/-- The starting value of a row maximum does not change it when taken once more: `max a (fold max a f) = fold max a f`. -/
theorem max_init_fold {ι : Type*} (s : Finset ι) (a : EReal) (f : ι → EReal) :
    max a (s.fold max a f) = s.fold max a f :=
  max_eq_right ((Finset.le_fold_max a).mpr (Or.inl le_rfl))

/-- The row index of a query tile as a 32-bit word: row `r` of tile `qi` (512 rows a tile) is row `qi·512 + r`. -/
theorem tile_row_word (qi r : Nat) :
    IntOp.addi (BitVec.ofNat 32 r) (IntOp.muli (BitVec.ofNat 32 qi) 512#32) = BitVec.ofNat 32 (qi * 512 + r) := by
  show BitVec.ofNat 32 r + BitVec.ofNat 32 qi * BitVec.ofNat 32 512 = _
  rw [← BitVec.ofNat_mul, ← BitVec.ofNat_add, Nat.add_comm]

end Cert.Attn

end
-- ==== Proof.KernelPayload.lean ====
/-
  The kernel body's values, entry by entry.

  At a grid point (batch `b`, query tile `qi` of 512 rows) the body loads a [1,512,1024] tile of the query, the
  batch's whole [1,1024,1024] context, and three [1024,1024] weight matrices (W_in transposed, and the two halves of
  W_out's rows, each transposed), and the two length words of the batch. Under hypotheses saying exactly that of the
  loaded blocks (`h0` … `h4`, `hwq`, `hwc`), each pure value the body computes is, entry by entry, the layer's
  corresponding quantity at row `qi·512 + r` of batch `b`: the projected query, the masked score (what the body stores
  to its second output), the attended context, and the output (what it stores to its first).
  A change of float format is the identity on the extended reals, so the narrowing casts between the products vanish.
-/
import proofs.«430534_j24120536335092_2_alg».proof.Proof.Gen.KernelIdeal.Skeleton
import proofs.«430534_j24120536335092_2_alg».proof.Proof.KernelDots
import proofs.«430534_j24120536335092_2_alg».proof.Proof.Spec
import Idealize.ShloMosaic.Lib.Pipeline.Value
import Idealize.ShloMosaic.Lib.ValueLayout

noncomputable section

namespace Cert.KernelIdeal.Pay

open Cert.KernelIdeal Cert.KernelIdeal.Gen Cert.KernelIdeal.Dots Cert.Attn
open Idealize.ShloMosaic Idealize.ShloMosaic.ValueIdx
open scoped BigOperators

/-! ## Two column layouts read at an entry -/

/-- A vector of length `a` viewed as an [a,1] column reads, at (r, 0), the vector at r. -/
theorem col_cast_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    omega)

/-- An [a,1] column broadcast along the rows of an [a,b] array reads, at (r, k), the column at (r, 0). -/
theorem col_bcast_apply {α : Type} {a b : ℕ} (v : (⟨2, ![a, 1]⟩ : Shape).Idx → α)
    (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-! ## A row's maximum and a row's sum, kept as a column and broadcast back -/

/-- Reducing a [512,1024] array along its second axis: the entry of row `r` at position `k` of the reduced axis is (r, k). -/
theorem lift_row (r : Fin 512) (k : Fin 1024) : reduces_S512x1024_S512.lift (ix1 r) k = ix2 r k :=
  funext fun a => Fin.ext (by match a with | ⟨0, _⟩ => rfl | ⟨1, _⟩ => rfl)

/-- The row maximum of a [512,1024] array, kept as a column and broadcast back, at (r, k): the fold of max over row r. -/
theorem rowmax_apply (P : FVec Ideal S512x1024 .f32) (r : Fin 512) (k : Fin 1024) :
    broadcastTo S512x1024 (shapeCast S512x1 (multiReduction .maximumf [1] S512 P 0xFF800000#32 reduces_S512x1024_S512 (.inl rfl) rfl) shapeCasts_S512_S512x1) broadcasts_S512x1_S512x1024 (ix2 r k)
      = (Finset.univ : Finset (Fin 1024)).fold max maxInit (fun k' => P (ix2 r k')) := by
  rw [col_bcast_apply, col_cast_apply]
  refine (Ideal.multiReduction_maximumf_single P 0xFF800000#32 reduces_S512x1024_S512 (.inl rfl) rfl (ix1 r)).trans ?_
  exact congrArg (fun f => Finset.fold max maxInit f (Finset.univ : Finset (Fin 1024)))
    (funext fun k' => congrArg P (lift_row r k'))

/-- The row sum likewise: the sum over row r. -/
theorem rowsum_apply (E : FVec Ideal S512x1024 .f32) (r : Fin 512) (k : Fin 1024) :
    broadcastTo S512x1024 (shapeCast S512x1 (multiReduction .add [1] S512 E 0x00000000#32 reduces_S512x1024_S512 (.inl rfl) rfl) shapeCasts_S512_S512x1) broadcasts_S512x1_S512x1024 (ix2 r k)
      = ∑ k' : Fin 1024, E (ix2 r k') := by
  rw [col_bcast_apply, col_cast_apply]
  refine (Ideal.multiReduction_add_single E 0x00000000#32 reduces_S512x1024_S512 (.inl rfl) rfl (ix1 r)).trans ?_
  exact Finset.sum_congr rfl fun k' _ => congrArg E (lift_row r k')

/-! ## The body's values at a grid point -/

/-- Row `r` of query tile `qi` is row `qi·512 + r` of the batch. -/
def tileRow (qi : Fin 2) (r : Fin 512) : Fin 1024 := ⟨qi.val * 512 + r.val, by omega⟩

section
variable (Q C : A3.Idx → EReal) (ql cl : A1.Idx → BitVec 32) (Win : A2.Idx → EReal) (Wout : AW.Idx → EReal)
variable (b : Fin 32) (qi : Fin 2) (i : grid0.Coords) (hi1 : (i 1).val = qi.val)
variable (wq wc : BitVec 32) (hwq : wq = ql (ix1 b)) (hwc : wc = cl (ix1 b))
variable (x0 : Vec Ideal S1x512x1024 .bf16) (x1 : Vec Ideal S1x1024x1024 .bf16) (x2 x3 x4 : Vec Ideal S1024x1024 .bf16)
variable (h0 : ∀ (r : Fin 512) (d : Fin 1024), x0 (ix3 (0 : Fin 1) r d) = Q (ix3 b (tileRow qi r) d))
variable (h1 : ∀ (k d : Fin 1024), x1 (ix3 (0 : Fin 1) k d) = C (ix3 b k d))
variable (h2 : ∀ (d e : Fin 1024), x2 (ix2 d e) = Win (ix2 e d))
variable (h3 : ∀ (c d : Fin 1024), x3 (ix2 c d) = Wout (ix2 d (lo c)))
variable (h4 : ∀ (c d : Fin 1024), x4 (ix2 c d) = Wout (ix2 d (hi c)))

include h0 h2 in
/-- The tile's projected query. -/
theorem pay2_eq (r : Fin 512) (e : Fin 1024) : k0_pay2 x0 x2 (ix2 r e) = proj Q Win b (tileRow qi r) e := by
  unfold k0_pay2 proj
  refine (matmul_rc_apply _ _ r e).trans (Finset.sum_congr rfl fun d _ => ?_)
  rw [shapeCast_1ab_ab_apply, shapeCast_self, h0, h2]

include h1 in
/-- The batch's context, its unit axis dropped. -/
theorem pay3_eq (k d : Fin 1024) : k0_pay3 x1 (ix2 k d) = C (ix3 b k d) := by
  unfold k0_pay3
  rw [shapeCast_1ab_ab_apply, h1]

include hi1 hwq hwc h0 h1 h2 in
/-- The masked scores of the tile's rows. -/
theorem pay4_eq (r : Fin 512) (k : Fin 1024) :
    k0_pay4 i wq wc x0 x2 x1 (ix2 r k) = masked Q C ql cl Win b (tileRow qi r) k := by
  unfold k0_pay4 masked keep score
  dsimp only
  rw [select_apply]
  have hrow : (addi (iota .tc S512x1024 32 [0] iota_S512x1024_d0_w32) (broadcast S512x1024 (Scalar.muli (BitVec.ofNat 32 (i 1).val) 512#32))) (ix2 r k)
      = BitVec.ofNat 32 (tileRow qi r).val := by
    show IntOp.addi (iota .tc S512x1024 32 [0] iota_S512x1024_d0_w32 (ix2 r k)) (IntOp.muli (BitVec.ofNat 32 (i 1).val) 512#32) = _
    rw [iota_single_apply, hi1]
    exact tile_row_word qi.val r.val
  have hcol : (iota .tc S512x1024 32 [1] iota_S512x1024_d1_w32) (ix2 r k) = BitVec.ofNat 32 k.val := by
    rw [iota_single_apply]
  have hm : (andi (cmpi .slt (addi (iota .tc S512x1024 32 [0] iota_S512x1024_d0_w32) (broadcast S512x1024 (Scalar.muli (BitVec.ofNat 32 (i 1).val) 512#32))) (broadcast S512x1024 wq))
        (cmpi .slt (iota .tc S512x1024 32 [1] iota_S512x1024_d1_w32) (broadcast S512x1024 wc))) (ix2 r k)
      = IntOp.andi (IntOp.cmpi .slt (BitVec.ofNat 32 (tileRow qi r).val) (ql (ix1 b))) (IntOp.cmpi .slt (BitVec.ofNat 32 k.val) (cl (ix1 b))) := by
    show IntOp.andi (IntOp.cmpi .slt ((addi (iota .tc S512x1024 32 [0] iota_S512x1024_d0_w32) (broadcast S512x1024 (Scalar.muli (BitVec.ofNat 32 (i 1).val) 512#32))) (ix2 r k)) wq)
        (IntOp.cmpi .slt ((iota .tc S512x1024 32 [1] iota_S512x1024_d1_w32) (ix2 r k)) wc) = _
    rw [hrow, hcol, hwq, hwc]
  rw [hm, matmul_rr_apply]
  congr 1
  refine Finset.sum_congr rfl fun d _ => ?_
  rw [pay2_eq Q Win b qi x0 x2 h0 h2, pay3_eq C b x1 h1]

include hi1 hwq hwc h0 h1 h2 in
/-- What the body stores to its second output: the masked scores, with a leading unit axis. -/
theorem pay5_eq (r : Fin 512) (k : Fin 1024) :
    k0_pay5 i wq wc x0 x2 x1 (ix3 (0 : Fin 1) r k) = masked Q C ql cl Win b (tileRow qi r) k := by
  unfold k0_pay5
  rw [shapeCast_ab_1ab_apply]
  exact pay4_eq Q C ql cl Win b qi i hi1 wq wc hwq hwc x0 x1 x2 h0 h1 h2 r k

include hi1 hwq hwc h0 h1 h2 in
/-- The attended context of the tile's rows: softmax weights of the masked scores against the context. -/
theorem pay6_eq (r : Fin 512) (d : Fin 1024) :
    k0_pay6 i wq wc x0 x2 x1 (ix2 r d) = mix Q C ql cl Win b (tileRow qi r) d := by
  have hP : ∀ k : Fin 1024, k0_pay4 i wq wc x0 x2 x1 (ix2 r k) = masked Q C ql cl Win b (tileRow qi r) k :=
    pay4_eq Q C ql cl Win b qi i hi1 wq wc hwq hwc x0 x1 x2 h0 h1 h2 r
  unfold k0_pay6 mix
  refine (matmul_rc_apply _ _ r d).trans (Finset.sum_congr rfl fun k _ => ?_)
  rw [pay3_eq C b x1 h1]
  congr 1
  show Ideal.div (Ideal.exp (k0_pay4 i wq wc x0 x2 x1 (ix2 r k) - _)) _ = _
  unfold weight denom expo rowMax
  rw [rowmax_apply, rowsum_apply]
  simp only [hP]
  congr 1
  refine Finset.sum_congr rfl fun k' _ => ?_
  show Ideal.exp (k0_pay4 i wq wc x0 x2 x1 (ix2 r k') - _) = _
  rw [rowmax_apply]
  simp only [hP]

include hi1 hwq hwc h0 h1 h2 h3 h4 in
/-- What the body stores to its first output: the layer's output, with a leading unit axis. -/
theorem pay1_eq (r : Fin 512) (d : Fin 1024) :
    k0_pay1 (k0_pay2 x0 x2) (k0_pay6 i wq wc x0 x2 x1) x3 x4 (ix3 (0 : Fin 1) r d)
      = out Q C ql cl Win Wout b (tileRow qi r) d := by
  unfold k0_pay1 out
  rw [shapeCast_ab_1ab_apply]
  show Ideal.tanh (matmul (F := Ideal) _ none _ _ _ (ix2 r d) + matmul (F := Ideal) _ none _ _ _ (ix2 r d)) = _
  rw [matmul_rc_apply, matmul_rc_apply]
  congr 2
  · refine Finset.sum_congr rfl fun c _ => ?_
    rw [shapeCast_self, h3]
    congr 1
    exact pay6_eq Q C ql cl Win b qi i hi1 wq wc hwq hwc x0 x1 x2 h0 h1 h2 r c
  · refine Finset.sum_congr rfl fun c _ => ?_
    rw [shapeCast_self, h4]
    congr 1
    exact pay2_eq Q Win b qi x0 x2 h0 h2 r c

end

end Cert.KernelIdeal.Pay

end
-- ==== Proof.KernelBlocks.lean ====
/-
  From tiles to arrays: the kernel's two result arrays, entry by entry.

  The grid has 32 × 2 points; point (b, qi) works on batch `b` and on the 512 query rows `qi·512 … qi·512 + 511`.
  What the region finds in its operand arrays is what @main's host operations left there: the query and the context
  narrowed (the identity on the extended reals), W_in transposed, and the two column halves of W_out, each transposed.
  So at point (b, qi) the body's five loaded blocks are: rows `qi·512 + r` of batch `b` of the query; batch `b` of the
  context; `W_in[e,d]` at (d, e); `W_out[d, c]` and `W_out[d, 1024 + c]` at (c, d); and the two table words are the
  batch's two lengths. With the body's values read entry by entry, the tile each point writes back is the restriction
  of ONE whole-array function to the point's block (rows `qi·512 …` of batch `b`); every entry (b, i, d) lies in the
  block of the point (b, i / 512); hence the arrays after the run are those functions: the layer's output and its
  masked scores.
-/
import proofs.«430534_j24120536335092_2_alg».proof.Proof.KernelPieces
import proofs.«430534_j24120536335092_2_alg».proof.Proof.KernelPayload
import Idealize.ShloMosaic.Lib.Pipeline.Value
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.KernelIdeal.Pieces Cert.KernelIdeal.Pay Cert.Attn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- No index map reads a table, so the tables' side condition is empty. -/
theorem ok : Ok m := trivial

/-! ## The argument arrays -/

abbrev aQ (c : Dev nD) : A3.Idx → EReal := m ((c : Thread nD τ).loc main_arg0)
abbrev aC (c : Dev nD) : A3.Idx → EReal := m ((c : Thread nD τ).loc main_arg1)
abbrev aql (c : Dev nD) : A1.Idx → BitVec 32 := m ((c : Thread nD τ).loc main_arg2)
abbrev acl (c : Dev nD) : A1.Idx → BitVec 32 := m ((c : Thread nD τ).loc main_arg3)
abbrev aWin (c : Dev nD) : A2.Idx → EReal := m ((c : Thread nD τ).loc main_arg4)
abbrev aWout (c : Dev nD) : AW.Idx → EReal := m ((c : Thread nD τ).loc main_arg5)

/-- The two result arrays, as functions of the argument arrays. -/
abbrev outArr (c : Dev nD) : A3.Idx → EReal :=
  fun j => out (aQ m c) (aC m c) (aql m c) (acl m c) (aWin m c) (aWout m c) (j 0) (j 1) (j 2)
abbrev maskedArr (c : Dev nD) : A3.Idx → EReal :=
  fun j => masked (aQ m c) (aC m c) (aql m c) (acl m c) (aWin m c) (j 0) (j 1) (j 2)

/-! ## What the region finds in its operand arrays -/

theorem V_v0 (c : Dev nD) : (V m c main_v0 : S32x1024x1024.Idx → EReal) = aQ m c := by
  dsimp only [V, hostOps0]; after_results; rfl

theorem V_v1 (c : Dev nD) : (V m c main_v1 : S32x1024x1024.Idx → EReal) = aC m c := by
  dsimp only [V, hostOps0]; after_results; rfl

theorem V_v3 (c : Dev nD) (d e : Fin 1024) : (V m c main_v3 : S1024x1024.Idx → EReal) (ix2 d e) = aWin m c (ix2 e d) := by
  dsimp only [V, hostOps0]; after_results
  exact transpose_ix2_apply _ _ d e

theorem V_v6 (c : Dev nD) (k d : Fin 1024) : (V m c main_v6 : S1024x1024.Idx → EReal) (ix2 k d) = aWout m c (ix2 d (lo k)) := by
  dsimp only [V, hostOps0]; after_results
  show transpose S1024x1024 [1, 0] (extractStridedSlice S1024x1024 ![0, 0] (aWout m c) slices_S1024x2048_S1024x1024_0_0) transposes_S1024x1024_S1024x1024_1_0 (ix2 k d) = _
  refine (transpose_ix2_apply _ _ k d).trans ?_
  exact extractStridedSlice_apply _ _ _ (ix2 d k) (ix2 d (lo k)) fun a => by
    match a with
    | ⟨0, _⟩ => exact (Nat.zero_add _).symm
    | ⟨1, _⟩ => exact (Nat.zero_add _).symm

theorem V_v9 (c : Dev nD) (k d : Fin 1024) : (V m c main_v9 : S1024x1024.Idx → EReal) (ix2 k d) = aWout m c (ix2 d (hi k)) := by
  dsimp only [V, hostOps0]; after_results
  show transpose S1024x1024 [1, 0] (extractStridedSlice S1024x1024 ![0, 1024] (aWout m c) slices_S1024x2048_S1024x1024_0_1024) transposes_S1024x1024_S1024x1024_1_0 (ix2 k d) = _
  refine (transpose_ix2_apply _ _ k d).trans ?_
  exact extractStridedSlice_apply _ _ _ (ix2 d k) (ix2 d (hi k)) fun a => by
    match a with
    | ⟨0, _⟩ => exact (Nat.zero_add _).symm
    | ⟨1, _⟩ => rfl

/-! ## The grid -/

/-- The batch and the query tile of grid point `t`. -/
def batchOf (t : Fin grid0.N) : Fin 32 := ⟨(grid0.coords t 0).val, (grid0.coords t 0).isLt⟩
def tileOf (t : Fin grid0.N) : Fin 2 := ⟨(grid0.coords t 1).val, (grid0.coords t 1).isLt⟩

/-- A grid coordinate as a 32-bit word and back. -/
theorem word_toNat (n : Nat) (h : n < 32) : (BitVec.ofNat 32 n).toNat = n := by
  rw [BitVec.toNat_ofNat]; exact Nat.mod_eq_of_lt (by omega)

theorem coord0 (t : Fin grid0.N) : (BitVec.ofNat 32 (grid0.coords t 0).val).toNat = (batchOf t).val :=
  word_toNat _ (grid0.coords t 0).isLt
theorem coord1 (t : Fin grid0.N) : (BitVec.ofNat 32 (grid0.coords t 1).val).toNat = (tileOf t).val :=
  word_toNat _ (Nat.lt_trans (grid0.coords t 1).isLt (by decide))

/-! ## The table words -/

theorem tbl0_eq : (tbl m 0 : S32.Idx → BitVec 32) = aql m 0 := V_main_arg2 m 0
theorem tbl1_eq : (tbl m 1 : S32.Idx → BitVec 32) = acl m 0 := V_main_arg3 m 0

/-- The word read from a held length table at point `t` is the table's entry at the point's batch. -/
theorem word0_at (c : Dev nD) (xt : TbBuf0 (F := Ideal) c tbM0_0) (t : Fin grid0.N) :
    word c tbM0_0 xt (grid0.coords t) = (xt : S32.Idx → BitVec 32) (ix1 (batchOf t)) := by
  unfold word
  rw [View.readAt_eq_ld]
  refine congrArg (xt : S32.Idx → BitVec 32) (funext fun a => Fin.ext ?_)
  match a with
  | ⟨0, _⟩ =>
    show (BitVec.ofNat 32 (grid0.coords t 0).val).toNat + 1 * 0 = (batchOf t).val
    rw [coord0]; omega

theorem word1_at (c : Dev nD) (xt : TbBuf0 (F := Ideal) c tbM0_1) (t : Fin grid0.N) :
    word c tbM0_1 xt (grid0.coords t) = (xt : S32.Idx → BitVec 32) (ix1 (batchOf t)) := by
  unfold word
  rw [View.readAt_eq_ld]
  refine congrArg (xt : S32.Idx → BitVec 32) (funext fun a => Fin.ext ?_)
  match a with
  | ⟨0, _⟩ =>
    show (BitVec.ofNat 32 (grid0.coords t 0).val).toNat + 1 * 0 = (batchOf t).val
    rw [coord0]; omega

theorem word0_eq (c : Dev nD) (t : Fin grid0.N) :
    word c tbM0_0 (tbl m 0) (grid0.coords t) = aql m c (ix1 (batchOf t)) := by
  obtain rfl : c = 0 := Subsingleton.elim _ _
  exact (word0_at 0 (tbl m 0) t).trans (congrFun (tbl0_eq m) _)

theorem word1_eq (c : Dev nD) (t : Fin grid0.N) :
    word c tbM0_1 (tbl m 1) (grid0.coords t) = acl m c (ix1 (batchOf t)) := by
  obtain rfl : c = 0 := Subsingleton.elim _ _
  exact (word1_at 0 (tbl m 1) t).trans (congrFun (tbl1_eq m) _)

/-! ## The blocks a point loads, by coordinates -/

/-- The five loaded blocks at point `t`, at their literal types. -/
abbrev blkQ (c : Dev nD) (t : Fin grid0.N) : Vec Ideal S1x512x1024 .bf16 := iblk m (ok m) c 0 t
abbrev blkC (c : Dev nD) (t : Fin grid0.N) : Vec Ideal S1x1024x1024 .bf16 := iblk m (ok m) c 1 t
abbrev blkWin (c : Dev nD) (t : Fin grid0.N) : Vec Ideal S1024x1024 .bf16 := iblk m (ok m) c 2 t
abbrev blkWo1 (c : Dev nD) (t : Fin grid0.N) : Vec Ideal S1024x1024 .bf16 := iblk m (ok m) c 3 t
abbrev blkWo2 (c : Dev nD) (t : Fin grid0.N) : Vec Ideal S1024x1024 .bf16 := iblk m (ok m) c 4 t

theorem blkQ_at (c : Dev nD) (t : Fin grid0.N) (r : Fin 512) (d : Fin 1024) :
    blkQ m c t (ix3 (0 : Fin 1) r d) = aQ m c (ix3 (batchOf t) (tileRow (tileOf t) r) d) := by
  show (V m c main_v0 : S32x1024x1024.Idx → EReal) _ = _
  rw [V_v0]
  refine congrArg (aQ m c) (funext fun a => Fin.ext ?_)
  match a with
  | ⟨0, _⟩ =>
    show (BitVec.ofNat 32 (grid0.coords t 0).val).toNat * 1 + 1 * 0 = (batchOf t).val
    rw [coord0]; omega
  | ⟨1, _⟩ =>
    show (BitVec.ofNat 32 (grid0.coords t 1).val).toNat * 512 + 1 * r.val = (tileOf t).val * 512 + r.val
    rw [coord1]; omega
  | ⟨2, _⟩ =>
    show (0#32 : BitVec 32).toNat * 1024 + 1 * d.val = d.val
    simp

theorem blkC_at (c : Dev nD) (t : Fin grid0.N) (k d : Fin 1024) :
    blkC m c t (ix3 (0 : Fin 1) k d) = aC m c (ix3 (batchOf t) k d) := by
  show (V m c main_v1 : S32x1024x1024.Idx → EReal) _ = _
  rw [V_v1]
  refine congrArg (aC m c) (funext fun a => Fin.ext ?_)
  match a with
  | ⟨0, _⟩ =>
    show (BitVec.ofNat 32 (grid0.coords t 0).val).toNat * 1 + 1 * 0 = (batchOf t).val
    rw [coord0]; omega
  | ⟨1, _⟩ =>
    show (0#32 : BitVec 32).toNat * 1024 + 1 * k.val = k.val
    simp
  | ⟨2, _⟩ =>
    show (0#32 : BitVec 32).toNat * 1024 + 1 * d.val = d.val
    simp

theorem blkWin_at (c : Dev nD) (t : Fin grid0.N) (d e : Fin 1024) :
    blkWin m c t (ix2 d e) = aWin m c (ix2 e d) := by
  show (V m c main_v3 : S1024x1024.Idx → EReal) _ = _
  refine Eq.trans (congrArg (V m c main_v3 : S1024x1024.Idx → EReal) (funext fun a => Fin.ext ?_)) (V_v3 m c d e)
  match a with
  | ⟨0, _⟩ => show (0#32 : BitVec 32).toNat * 1024 + 1 * d.val = d.val; simp
  | ⟨1, _⟩ => show (0#32 : BitVec 32).toNat * 1024 + 1 * e.val = e.val; simp

theorem blkWo1_at (c : Dev nD) (t : Fin grid0.N) (k d : Fin 1024) :
    blkWo1 m c t (ix2 k d) = aWout m c (ix2 d (lo k)) := by
  show (V m c main_v6 : S1024x1024.Idx → EReal) _ = _
  refine Eq.trans (congrArg (V m c main_v6 : S1024x1024.Idx → EReal) (funext fun a => Fin.ext ?_)) (V_v6 m c k d)
  match a with
  | ⟨0, _⟩ => show (0#32 : BitVec 32).toNat * 1024 + 1 * k.val = k.val; simp
  | ⟨1, _⟩ => show (0#32 : BitVec 32).toNat * 1024 + 1 * d.val = d.val; simp

theorem blkWo2_at (c : Dev nD) (t : Fin grid0.N) (k d : Fin 1024) :
    blkWo2 m c t (ix2 k d) = aWout m c (ix2 d (hi k)) := by
  show (V m c main_v9 : S1024x1024.Idx → EReal) _ = _
  refine Eq.trans (congrArg (V m c main_v9 : S1024x1024.Idx → EReal) (funext fun a => Fin.ext ?_)) (V_v9 m c k d)
  match a with
  | ⟨0, _⟩ => show (0#32 : BitVec 32).toNat * 1024 + 1 * k.val = k.val; simp
  | ⟨1, _⟩ => show (0#32 : BitVec 32).toNat * 1024 + 1 * d.val = d.val; simp

/-! ## What a point leaves in its two output tiles -/

/-- An index of a [1,512,1024] tile is (0, its row, its column). -/
theorem tile_idx (y : S1x512x1024.Idx) : y = ix3 (0 : Fin 1) (y 1) (y 2) :=
  funext fun a => by
    match a with
    | ⟨0, h⟩ =>
      exact Fin.ext (by
        have h0 : (y ⟨0, h⟩).val < 1 := (y ⟨0, h⟩).isLt
        show (y ⟨0, h⟩).val = 0
        omega)
    | ⟨1, _⟩ => rfl
    | ⟨2, _⟩ => rfl

/-- The second output's tile after point `t`: the masked scores of the point's rows. -/
theorem tile_masked (c : Dev nD) (t : Fin grid0.N) (y : S1x512x1024.Idx) :
    (outsAt0 m (ok m) c t).2 y
      = masked (aQ m c) (aC m c) (aql m c) (acl m c) (aWin m c) (batchOf t) (tileRow (tileOf t) (y 1)) (y 2) := by
  unfold outsAt0
  dsimp only
  refine (congrFun (out6_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t)
    (blkQ m c t) (blkC m c t) (blkWin m c t) (blkWo1 m c t) (blkWo2 m c t) (tbl m 0) (tbl m 1)) y).trans ?_
  refine (congrArg (k0_pay5 (grid0.coords t) (word c tbM0_0 (tbl m 0) (grid0.coords t)) (word c tbM0_1 (tbl m 1) (grid0.coords t)) (blkQ m c t) (blkWin m c t) (blkC m c t)) (tile_idx y)).trans ?_
  exact pay5_eq (aQ m c) (aC m c) (aql m c) (acl m c) (aWin m c) (batchOf t) (tileOf t) (grid0.coords t) rfl
    (word c tbM0_0 (tbl m 0) (grid0.coords t)) (word c tbM0_1 (tbl m 1) (grid0.coords t)) (word0_eq m c t) (word1_eq m c t)
    (blkQ m c t) (blkC m c t) (blkWin m c t) (blkQ_at m c t) (blkC_at m c t) (blkWin_at m c t) (y 1) (y 2)

/-- The first output's tile after point `t`: the layer's output at the point's rows. -/
theorem tile_out (c : Dev nD) (t : Fin grid0.N) (y : S1x512x1024.Idx) :
    (outsAt0 m (ok m) c t).1 y
      = out (aQ m c) (aC m c) (aql m c) (acl m c) (aWin m c) (aWout m c) (batchOf t) (tileRow (tileOf t) (y 1)) (y 2) := by
  unfold outsAt0
  dsimp only
  refine (congrFun (out5_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t)
    (blkQ m c t) (blkC m c t) (blkWin m c t) (blkWo1 m c t) (blkWo2 m c t) (tbl m 0) (tbl m 1)) y).trans ?_
  refine (congrArg (k0_pay1 (k0_pay2 (blkQ m c t) (blkWin m c t)) (k0_pay6 (grid0.coords t) (word c tbM0_0 (tbl m 0) (grid0.coords t)) (word c tbM0_1 (tbl m 1) (grid0.coords t)) (blkQ m c t) (blkWin m c t) (blkC m c t)) (blkWo1 m c t) (blkWo2 m c t)) (tile_idx y)).trans ?_
  exact pay1_eq (aQ m c) (aC m c) (aql m c) (acl m c) (aWin m c) (aWout m c) (batchOf t) (tileOf t) (grid0.coords t) rfl
    (word c tbM0_0 (tbl m 0) (grid0.coords t)) (word c tbM0_1 (tbl m 1) (grid0.coords t)) (word0_eq m c t) (word1_eq m c t)
    (blkQ m c t) (blkC m c t) (blkWin m c t) (blkWo1 m c t) (blkWo2 m c t)
    (blkQ_at m c t) (blkC_at m c t) (blkWin_at m c t) (blkWo1_at m c t) (blkWo2_at m c t) (y 1) (y 2)

end Cert.KernelIdeal.Blocks

end
-- ==== Proof.KernelArrays.lean ====
/-
  The kernel's run, read: after it the two result arrays hold the layer's output and its masked scores.

  Each grid point writes its two tiles back to block (b, qi) of the result arrays, rows `qi·512 …` of batch `b`; what it
  writes is the restriction to that block of one function of the argument arrays (the tiles were read entry by entry
  before); the 64 blocks cover the arrays, entry (b, i, d) lying in the block of the point numbered `2·b + i / 512`.
  So each result array ends holding its function everywhere, and the argument arrays are untouched.
-/
import proofs.«430534_j24120536335092_2_alg».proof.Proof.KernelBlocks

set_option maxRecDepth 16384

noncomputable section

namespace Cert.KernelIdeal.Arrays

open Cert.KernelIdeal Cert.KernelIdeal.Gen Cert.KernelIdeal.Pieces Cert.KernelIdeal.Pay Cert.KernelIdeal.Blocks Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid's numbering -/

theorem stride0 : grid0.stride 0 = 2 := by decide
theorem stride1 : grid0.stride 1 = 1 := by decide

/-- The point that works on batch `b` and on the tile holding row `i`. -/
def pointOf (b : Fin 32) (i : Fin 1024) : Fin grid0.N :=
  ⟨b.val * 2 + i.val / 512, by rw [N_0]; have := b.isLt; have := i.isLt; omega⟩

theorem pointOf_batch (b : Fin 32) (i : Fin 1024) :
    (BitVec.ofNat 32 (grid0.coords (pointOf b i) 0).val).toNat = b.val := by
  rw [coord0]
  show (b.val * 2 + i.val / 512) / grid0.stride 0 % 32 = b.val
  rw [stride0]; have := b.isLt; have := i.isLt; omega

theorem pointOf_tile (b : Fin 32) (i : Fin 1024) :
    (BitVec.ofNat 32 (grid0.coords (pointOf b i) 1).val).toNat = i.val / 512 := by
  rw [coord1]
  show (b.val * 2 + i.val / 512) / grid0.stride 1 % 2 = i.val / 512
  rw [stride1]; have := b.isLt; have := i.isLt; omega

/-! ## The first result: the layer's output -/

/-- WHAT POINT `t` WRITES BACK to the first result array is block `t` of `outArr`. -/
theorem flushed5_eq (c : Dev nD) (t : Fin (cfgM m (ok m)).N) :
    (dats m (ok m) 0 c).flushed 5 t = (((cfgM m (ok m)).win 5).blk t).view.read (Elt Ideal) (outArr m c) := by
  show ((cfgM m (ok m)).win 5).cut (grid0.coords t) ((dats m (ok m) 0 c).after 5 t) = _
  rw [after0_5]
  refine funext fun (y : S1x512x1024.Idx) => ?_
  have h0 : (y 0).val < 1 := (y 0).isLt
  have e : ((((cfgM m (ok m)).win 5).blk t).view.emb y : S32x1024x1024.Idx)
      = ix3 (batchOf t) (tileRow (tileOf t) (y 1)) (y 2) := by
    funext a; apply Fin.ext
    match a with
    | ⟨0, _⟩ =>
      show (BitVec.ofNat 32 (grid0.coords t 0).val).toNat * 1 + 1 * (y 0).val = (batchOf t).val
      rw [coord0]; omega
    | ⟨1, _⟩ =>
      show (BitVec.ofNat 32 (grid0.coords t 1).val).toNat * 512 + 1 * (y 1).val = (tileOf t).val * 512 + (y 1).val
      rw [coord1]; omega
    | ⟨2, _⟩ =>
      show (0#32 : BitVec 32).toNat * 1024 + 1 * (y 2).val = (y 2).val
      simp
  refine (tile_out m c t y).trans ?_
  exact (congrArg (outArr m c) e).symm

/-- An index of the array is in point `t`'s block iff each coordinate is in the block's range on its axis. -/
theorem mem_blk5 (t : Fin (cfgM m (ok m)).N) (i : S32x1024x1024.Idx) :
    i ∈ (((cfgM m (ok m)).win 5).blk t).view.set ↔ ∀ a : Fin 3, ((cfgM m (ok m)).win 5).index t a * S1x512x1024.size a ≤ (i a).val ∧ (i a).val < ((cfgM m (ok m)).win 5).index t a * S1x512x1024.size a + S1x512x1024.size a :=
  (Eq.to_iff (congrArg (fun S : Finset S32x1024x1024.Idx => i ∈ S)
    (View.set_slice_whole main_v10_0 (((cfgM m (ok m)).win 5).rect t)))).trans Rect.mem_set_unit

/-- Every entry (b, i, d) lies in the block of the point (b, i / 512). -/
theorem cover5 (i : S32x1024x1024.Idx) :
    ∃ t : Fin (cfgM m (ok m)).N, ((cfgM m (ok m)).win 5).flush t = true ∧ i ∈ (((cfgM m (ok m)).win 5).blk t).view.set := by
  have hi0 : (i 0).val < 32 := (i 0).isLt
  have hi1 : (i 1).val < 1024 := (i 1).isLt
  have hi2 : (i 2).val < 1024 := (i 2).isLt
  refine ⟨pointOf (i 0) (i 1), flush0_5 (adm m (ok m)) _, ?_⟩
  rw [mem_blk5]
  intro a
  have c0 := pointOf_batch (i 0) (i 1)
  have c1 := pointOf_tile (i 0) (i 1)
  match a with
  | ⟨0, _⟩ =>
    show (BitVec.ofNat 32 (grid0.coords (pointOf (i 0) (i 1)) 0).val).toNat * 1 ≤ (i 0).val ∧ (i 0).val < (BitVec.ofNat 32 (grid0.coords (pointOf (i 0) (i 1)) 0).val).toNat * 1 + 1
    rw [c0]; omega
  | ⟨1, _⟩ =>
    show (BitVec.ofNat 32 (grid0.coords (pointOf (i 0) (i 1)) 1).val).toNat * 512 ≤ (i 1).val ∧ (i 1).val < (BitVec.ofNat 32 (grid0.coords (pointOf (i 0) (i 1)) 1).val).toNat * 512 + 512
    rw [c1]; omega
  | ⟨2, _⟩ =>
    show (0#32 : BitVec 32).toNat * 1024 ≤ (i 2).val ∧ (i 2).val < (0#32 : BitVec 32).toNat * 1024 + 1024
    simp; omega

/-- The first result array after the run. -/
theorem final5 (c : Dev nD) : (dats m (ok m) 0 c).arrAt 5 (cfgM m (ok m)).N = outArr m c :=
  (dats m (ok m) 0 c).arrAt_eq_of_cover 5 (outArr m c) (fun t _ => flushed5_eq m c t) (cover5 m)

/-! ## The second result: the masked scores -/

/-- WHAT POINT `t` WRITES BACK to the second result array is block `t` of `maskedArr`. -/
theorem flushed6_eq (c : Dev nD) (t : Fin (cfgM m (ok m)).N) :
    (dats m (ok m) 0 c).flushed 6 t = (((cfgM m (ok m)).win 6).blk t).view.read (Elt Ideal) (maskedArr m c) := by
  show ((cfgM m (ok m)).win 6).cut (grid0.coords t) ((dats m (ok m) 0 c).after 6 t) = _
  rw [after0_6]
  refine funext fun (y : S1x512x1024.Idx) => ?_
  have h0 : (y 0).val < 1 := (y 0).isLt
  have e : ((((cfgM m (ok m)).win 6).blk t).view.emb y : S32x1024x1024.Idx)
      = ix3 (batchOf t) (tileRow (tileOf t) (y 1)) (y 2) := by
    funext a; apply Fin.ext
    match a with
    | ⟨0, _⟩ =>
      show (BitVec.ofNat 32 (grid0.coords t 0).val).toNat * 1 + 1 * (y 0).val = (batchOf t).val
      rw [coord0]; omega
    | ⟨1, _⟩ =>
      show (BitVec.ofNat 32 (grid0.coords t 1).val).toNat * 512 + 1 * (y 1).val = (tileOf t).val * 512 + (y 1).val
      rw [coord1]; omega
    | ⟨2, _⟩ =>
      show (0#32 : BitVec 32).toNat * 1024 + 1 * (y 2).val = (y 2).val
      simp
  refine (tile_masked m c t y).trans ?_
  exact (congrArg (maskedArr m c) e).symm

/-- An index of the array is in point `t`'s block iff each coordinate is in the block's range on its axis. -/
theorem mem_blk6 (t : Fin (cfgM m (ok m)).N) (i : S32x1024x1024.Idx) :
    i ∈ (((cfgM m (ok m)).win 6).blk t).view.set ↔ ∀ a : Fin 3, ((cfgM m (ok m)).win 6).index t a * S1x512x1024.size a ≤ (i a).val ∧ (i a).val < ((cfgM m (ok m)).win 6).index t a * S1x512x1024.size a + S1x512x1024.size a :=
  (Eq.to_iff (congrArg (fun S : Finset S32x1024x1024.Idx => i ∈ S)
    (View.set_slice_whole main_v10_1 (((cfgM m (ok m)).win 6).rect t)))).trans Rect.mem_set_unit

/-- Every entry (b, i, d) lies in the block of the point (b, i / 512). -/
theorem cover6 (i : S32x1024x1024.Idx) :
    ∃ t : Fin (cfgM m (ok m)).N, ((cfgM m (ok m)).win 6).flush t = true ∧ i ∈ (((cfgM m (ok m)).win 6).blk t).view.set := by
  have hi0 : (i 0).val < 32 := (i 0).isLt
  have hi1 : (i 1).val < 1024 := (i 1).isLt
  have hi2 : (i 2).val < 1024 := (i 2).isLt
  refine ⟨pointOf (i 0) (i 1), flush0_6 (adm m (ok m)) _, ?_⟩
  rw [mem_blk6]
  intro a
  have c0 := pointOf_batch (i 0) (i 1)
  have c1 := pointOf_tile (i 0) (i 1)
  match a with
  | ⟨0, _⟩ =>
    show (BitVec.ofNat 32 (grid0.coords (pointOf (i 0) (i 1)) 0).val).toNat * 1 ≤ (i 0).val ∧ (i 0).val < (BitVec.ofNat 32 (grid0.coords (pointOf (i 0) (i 1)) 0).val).toNat * 1 + 1
    rw [c0]; omega
  | ⟨1, _⟩ =>
    show (BitVec.ofNat 32 (grid0.coords (pointOf (i 0) (i 1)) 1).val).toNat * 512 ≤ (i 1).val ∧ (i 1).val < (BitVec.ofNat 32 (grid0.coords (pointOf (i 0) (i 1)) 1).val).toNat * 512 + 512
    rw [c1]; omega
  | ⟨2, _⟩ =>
    show (0#32 : BitVec 32).toNat * 1024 ≤ (i 2).val ∧ (i 2).val < (0#32 : BitVec 32).toNat * 1024 + 1024
    simp; omega

/-- The second result array after the run. -/
theorem final6 (c : Dev nD) : (dats m (ok m) 0 c).arrAt 6 (cfgM m (ok m)).N = maskedArr m c :=
  (dats m (ok m) 0 c).arrAt_eq_of_cover 6 (maskedArr m c) (fun t _ => flushed6_eq m c t) (cover6 m)

/-! ## The run -/

/-- Every weakly fair execution terminates with the two result arrays at the layer's output and masked scores, the
    argument arrays unchanged. -/
theorem run : θ_run defs (onTc (τ := τ) (main (F := Ideal))) ⟨m, fun _ => 0, ρ⟩ fun r => ∀ c : Dev nD,
      r.2.mem ((c.tc : Thread nD τ).loc main_v10_0) = outArr m c
      ∧ r.2.mem ((c.tc : Thread nD τ).loc main_v10_1) = maskedArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 5).trans (final5 m c), ((h c).1 6).trans (final6 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ (ok m))

end Cert.KernelIdeal.Arrays

end
-- ==== Proof.RefValue.lean ====
/-
  The reference, entry by entry: its two results are the layer's masked score and output.

  The reference computes the layer with whole-array operations: two contractions for the projected query and the
  scores, the length mask built from an iota compared with the broadcast lengths, a select against the fill value,
  the softmax as exp (x - max) over its sum (the maximum taken once more against its own starting value, which changes
  nothing), a contraction for the attended context, and one contraction of the concatenation [mix, proj] against the
  rows of W_out, which splits into the two half-sums the layer is written with.
-/
import proofs.«430534_j24120536335092_2_alg».proof.Proof.RefRead
import proofs.«430534_j24120536335092_2_alg».proof.Proof.Spec

noncomputable section

namespace Cert.Attn.Ref

open Cert.Attn Idealize.ShloMosaic Idealize.ShloMosaic.ValueIdx
open Cert.ReferenceIdeal Cert.ReferenceIdeal.Gen Cert.ReferenceIdeal.ReadP
open scoped BigOperators

/-- The first contraction at (b, i, e) is the projected query. -/
theorem v0_at (x0 : A3.Idx → EReal) (x4 : A2.Idx → EReal) (b : Fin 32) (i e : Fin 1024) :
    val_main_v0 (F := Ideal) x0 x4 (ix3 b i e) = proj x0 x4 b i e := by
  rw [val_main_v0_apply]
  unfold proj
  refine Finset.sum_congr rfl fun k _ => ?_
  rw [show lidx_main_v0 (ix3 b i e) k = ix3 b i k from eq_ix3 _,
    show ridx_main_v0 (ix3 b i e) k = ix2 e k from eq_ix2 _]

/-- The second contraction at (b, i, k) is the raw score. -/
theorem v1_at (x0 x1 : A3.Idx → EReal) (x4 : A2.Idx → EReal) (b : Fin 32) (i k : Fin 1024) :
    val_main_v1 (F := Ideal) x0 x1 x4 (ix3 b i k) = score x0 x1 x4 b i k := by
  rw [val_main_v1_apply]
  unfold score
  refine Finset.sum_congr rfl fun d _ => ?_
  rw [show lidx_main_v1 (ix3 b i k) d = ix3 b i d from eq_ix3 _,
    show ridx_main_v1 (ix3 b i k) d = ix3 b k d from eq_ix3 _, v0_at]

/-- The broadcast query-length compare at (b, i, k): row i against the batch's query length. -/
theorem v16_at (x2 : A1.Idx → BitVec 32) (b : Fin 32) (i k : Fin 1024) :
    val_main_v16 (F := Ideal) x2 (ix3 b i k) = IntOp.cmpi .slt (BitVec.ofNat 32 i.val) (x2 (ix1 b)) := by
  rw [val_main_v16_apply, val_main_v14_apply, val_main_v7_apply, val_main_v5_apply, val_main_v3_apply,
    val_main_v2_apply, val_main_v6_apply, val_main_v4_apply]
  exact congrArg (fun j => IntOp.cmpi .slt (BitVec.ofNat 32 i.val) (x2 j)) (eq_ix1 _)

/-- The broadcast context-length compare at (b, i, k): column k against the batch's context length. -/
theorem v17_at (x3 : A1.Idx → BitVec 32) (b : Fin 32) (i k : Fin 1024) :
    val_main_v17 (F := Ideal) x3 (ix3 b i k) = IntOp.cmpi .slt (BitVec.ofNat 32 k.val) (x3 (ix1 b)) := by
  rw [val_main_v17_apply, val_main_v15_apply, val_main_v13_apply, val_main_v11_apply, val_main_v9_apply,
    val_main_v8_apply, val_main_v12_apply, val_main_v10_apply]
  exact congrArg (fun j => IntOp.cmpi .slt (BitVec.ofNat 32 k.val) (x3 j)) (eq_ix1 _)

/-- The mask at (b, i, k) is the layer's length mask. -/
theorem v18_at (x2 x3 : A1.Idx → BitVec 32) (b : Fin 32) (i k : Fin 1024) :
    val_main_v18 (F := Ideal) x2 x3 (ix3 b i k) = keep x2 x3 b i k := by
  rw [val_main_v18_apply, v16_at, v17_at]
  rfl

/-- The broadcast fill value, anywhere. -/
theorem fill_at (j : S32x1024x1024.Idx) : val_main_call0_v1 (F := Ideal) j = fill := by
  rw [val_main_call0_v1_apply]
  rfl

/-- The reference's second result at (b, i, k) is the masked score. -/
theorem masked_eq (x0 x1 : A3.Idx → EReal) (x2 x3 : A1.Idx → BitVec 32) (x4 : A2.Idx → EReal)
    (b : Fin 32) (i k : Fin 1024) :
    val_main_v19 (F := Ideal) x0 x1 x2 x3 x4 (ix3 b i k) = masked x0 x1 x2 x3 x4 b i k := by
  rw [val_main_v19_apply, v18_at, v1_at, fill_at]
  rfl

/-- The reduced axis in the form the inserted index is defined from. -/
theorem reduces_d2 : S32x1024x1024.Reduces [2] S32x1024 := by decide

/-- The index over (b, i) with coordinate k inserted on the reduced axis is (b, i, k). -/
theorem lift_at (b : Fin 32) (i k : Fin 1024) : reduces_d2.lift (ix2 b i) k = ix3 b i k :=
  funext fun a => Fin.ext (by match a with | ⟨0, _⟩ => rfl | ⟨1, _⟩ => rfl | ⟨2, _⟩ => rfl)

/-- The max-reduce at (b, i) is the fold of max over the row of masked scores, from the bottom element. -/
theorem v20_at (x0 x1 : A3.Idx → EReal) (x2 x3 : A1.Idx → BitVec 32) (x4 : A2.Idx → EReal)
    (b : Fin 32) (i : Fin 1024) :
    val_main_v20 (F := Ideal) x0 x1 x2 x3 x4 (ix2 b i)
      = (Finset.univ : Finset (Fin 1024)).fold max maxInit (fun k => masked x0 x1 x2 x3 x4 b i k) := by
  unfold val_main_v20
  rw [Host.reduce_eq_fold_single FloatOps.maximumf _ _ _ reduces_d2]
  show (Finset.univ : Finset (Fin 1024)).fold max maxInit
      (fun k : Fin 1024 => val_main_v19 (F := Ideal) x0 x1 x2 x3 x4 (reduces_d2.lift (ix2 b i) k)) = _
  exact Finset.fold_congr (fun k _ => by rw [lift_at, masked_eq])

/-- The maximum taken once more against its starting value is the row maximum. -/
theorem v22_at (x0 x1 : A3.Idx → EReal) (x2 x3 : A1.Idx → BitVec 32) (x4 : A2.Idx → EReal)
    (b : Fin 32) (i : Fin 1024) :
    val_main_v22 (F := Ideal) x0 x1 x2 x3 x4 (ix2 b i) = rowMax x0 x1 x2 x3 x4 b i := by
  rw [val_main_v22_apply, val_main_v21_apply, v20_at]
  exact max_init_fold _ _ _

/-- The exponential at (b, i, k) is the softmax numerator. -/
theorem v26_at (x0 x1 : A3.Idx → EReal) (x2 x3 : A1.Idx → BitVec 32) (x4 : A2.Idx → EReal)
    (b : Fin 32) (i k : Fin 1024) :
    val_main_v26 (F := Ideal) x0 x1 x2 x3 x4 (ix3 b i k) = expo x0 x1 x2 x3 x4 b i k := by
  rw [val_main_v26_apply, val_main_v25_apply, val_main_v24_apply, val_main_v23_apply,
    show idx_main_v23 (idx_main_v24 (ix3 b i k)) = ix2 b i from eq_ix2 _, v22_at, masked_eq]
  rfl

/-- The sum of the exponentials at (b, i) is the softmax denominator. -/
theorem v27_at (x0 x1 : A3.Idx → EReal) (x2 x3 : A1.Idx → BitVec 32) (x4 : A2.Idx → EReal)
    (b : Fin 32) (i : Fin 1024) :
    val_main_v27 (F := Ideal) x0 x1 x2 x3 x4 (ix2 b i) = denom x0 x1 x2 x3 x4 b i := by
  rw [val_main_v27_apply, val_main_cst_2_apply, Ideal.ofBits_def, Ideal.ofBits_zero_f32, zero_add]
  unfold denom
  refine Finset.sum_congr rfl fun k _ => ?_
  rw [show idx_main_v27 (ix2 b i) k = ix3 b i k from eq_ix3 _, v26_at]

/-- The quotient at (b, i, k) is the softmax weight. -/
theorem v30_at (x0 x1 : A3.Idx → EReal) (x2 x3 : A1.Idx → BitVec 32) (x4 : A2.Idx → EReal)
    (b : Fin 32) (i k : Fin 1024) :
    val_main_v30 (F := Ideal) x0 x1 x2 x3 x4 (ix3 b i k) = weight x0 x1 x2 x3 x4 b i k := by
  rw [val_main_v30_apply, val_main_v29_apply, val_main_v28_apply,
    show idx_main_v28 (idx_main_v29 (ix3 b i k)) = ix2 b i from eq_ix2 _, v27_at, v26_at]
  rfl

/-- The third contraction at (b, i, d) is the attended context. -/
theorem v31_at (x0 x1 : A3.Idx → EReal) (x2 x3 : A1.Idx → BitVec 32) (x4 : A2.Idx → EReal)
    (b : Fin 32) (i d : Fin 1024) :
    val_main_v31 (F := Ideal) x0 x1 x2 x3 x4 (ix3 b i d) = mix x0 x1 x2 x3 x4 b i d := by
  rw [val_main_v31_apply]
  unfold mix
  refine Finset.sum_congr rfl fun k _ => ?_
  rw [show lidx_main_v31 (ix3 b i d) k = ix3 b i k from eq_ix3 _,
    show ridx_main_v31 (ix3 b i d) k = ix3 b k d from eq_ix3 _, v30_at]

/-- The concatenation at a column of its first half is the attended context. -/
theorem v32_lo (x0 x1 : A3.Idx → EReal) (x2 x3 : A1.Idx → BitVec 32) (x4 : A2.Idx → EReal)
    (b : Fin 32) (i c : Fin 1024) :
    val_main_v32 (F := Ideal) x0 x1 x2 x3 x4 (ix3 b i (lo c)) = mix x0 x1 x2 x3 x4 b i c := by
  unfold val_main_v32
  rw [concatenate_pair_apply_left (s₁ := S32x1024x1024) (s₂ := S32x1024x1024) (2 : Fin 3) _ _ _
    (ix3 b i (lo c)) rfl (ix3 b i c)
    (fun a => by match a with | ⟨0, _⟩ => rfl | ⟨1, _⟩ => rfl | ⟨2, _⟩ => rfl), v31_at]

/-- The concatenation at a column of its second half is the projected query. -/
theorem v32_hi (x0 x1 : A3.Idx → EReal) (x2 x3 : A1.Idx → BitVec 32) (x4 : A2.Idx → EReal)
    (b : Fin 32) (i c : Fin 1024) :
    val_main_v32 (F := Ideal) x0 x1 x2 x3 x4 (ix3 b i (hi c)) = proj x0 x4 b i c := by
  unfold val_main_v32
  rw [concatenate_pair_apply_right (s₁ := S32x1024x1024) (s₂ := S32x1024x1024) (2 : Fin 3) _ _ _
    (ix3 b i (hi c)) rfl rfl (ix3 b i c)
    (fun a ha => by
      match a, ha with
      | ⟨0, _⟩, _ => rfl
      | ⟨1, _⟩, _ => rfl
      | ⟨2, _⟩, ha => exact absurd rfl ha)
    (Nat.add_comm _ _), v0_at]

/-- The reference's first result at (b, i, d) is the layer's output. -/
theorem out_eq (x0 x1 : A3.Idx → EReal) (x2 x3 : A1.Idx → BitVec 32) (x4 : A2.Idx → EReal) (x5 : AW.Idx → EReal)
    (b : Fin 32) (i d : Fin 1024) :
    val_main_v34 (F := Ideal) x0 x1 x2 x3 x4 x5 (ix3 b i d) = out x0 x1 x2 x3 x4 x5 b i d := by
  rw [val_main_v34_apply, val_main_v33_apply, sum_two_halves]
  unfold out
  refine congrArg Ideal.tanh
    (congrArg₂ (· + ·) (Finset.sum_congr rfl fun c _ => ?_) (Finset.sum_congr rfl fun c _ => ?_))
  · rw [show lidx_main_v33 (ix3 b i d) (lo c) = ix3 b i (lo c) from eq_ix3 _,
      show ridx_main_v33 (ix3 b i d) (lo c) = ix2 d (lo c) from eq_ix2 _, v32_lo]
  · rw [show lidx_main_v33 (ix3 b i d) (hi c) = ix3 b i (hi c) from eq_ix3 _,
      show ridx_main_v33 (ix3 b i d) (hi c) = ix2 d (hi c) from eq_ix2 _, v32_hi]

end Cert.Attn.Ref

end
-- ==== Proof.lean ====
/-
  The certificate of the masked attention kernel against its jnp reference.

  Both programs compute, for every batch, query row and feature, the same layer: the query projected by W_in, its scores
  against the context, the scores outside the batch's query and context lengths replaced by the fill value -1e9, a
  softmax over the context rows, the attended context, and the tanh of the concatenation [attended, projected] applied
  to W_out. The kernel tiles the query rows by 512, keeps the whole context of a batch resident, takes W_in and the two
  halves of W_out's rows transposed, and writes the output layer as two half-length contractions summed; over the
  extended reals a format change is the identity, a matrix product is a plain sum, and a sum over 2048 positions is the
  sum of its two halves, so the two programs' result arrays are equal entry by entry, at infinite entries too: the
  precondition (finite inputs) is never used.

  The frames: the kernel's index maps read no prefetched table, so the tables' side condition is empty and the
  generated frames apply; the reference's frame is its run with the results dropped. The idealization rewrote nothing.
  The value claim: the kernel's run leaves its result arrays at the layer's output and masked scores (Proof/KernelArrays),
  and the reference's two results are those same functions of arguments that agree (Proof/RefValue).
-/
import proofs.«430534_j24120536335092_2_alg».proof.Defs
import proofs.«430534_j24120536335092_2_alg».proof.Proof.Gen.Kernel
import proofs.«430534_j24120536335092_2_alg».proof.Proof.Gen.Kernel.Skeleton
import proofs.«430534_j24120536335092_2_alg».proof.Proof.Gen.Kernel.Launch
import proofs.«430534_j24120536335092_2_alg».proof.Proof.Gen.Kernel.Points
import proofs.«430534_j24120536335092_2_alg».proof.Proof.Gen.Kernel.Frame
import proofs.«430534_j24120536335092_2_alg».proof.Proof.Gen.KernelIdeal
import proofs.«430534_j24120536335092_2_alg».proof.Proof.Gen.KernelIdeal.Skeleton
import proofs.«430534_j24120536335092_2_alg».proof.Proof.Gen.KernelIdeal.Launch
import proofs.«430534_j24120536335092_2_alg».proof.Proof.Gen.KernelIdeal.Points
import proofs.«430534_j24120536335092_2_alg».proof.Proof.Gen.KernelIdeal.Frame
import proofs.«430534_j24120536335092_2_alg».proof.Proof.Gen.ReferenceIdeal
import proofs.«430534_j24120536335092_2_alg».proof.Proof.Gen.Pre_finite_inputs
import proofs.«430534_j24120536335092_2_alg».proof.Proof.KernelArrays
import proofs.«430534_j24120536335092_2_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and keeps its arguments: no index map reads a table. -/
theorem frame_k : Cert.frame_Kernel := fun m ρ _ => Cert.Kernel.Gen.frame m ρ trivial

/-- So does its idealization. -/
theorem frame_ki : Cert.frame_KernelIdeal := fun m ρ _ => Cert.KernelIdeal.Gen.frame m ρ trivial

/-- The reference runs and keeps its arguments: its run, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The two idealized programs end with equal results: both result arrays are the layer's output and masked scores of
    the (agreeing) argument arrays. -/
theorem algebraic : Cert.algebraic_KernelIdeal_ReferenceIdeal := by
  intro m ρ m' ρ' _ hagree
  refine ⟨fun c => Cert.KernelIdeal.Blocks.outArr m c, fun c => Cert.KernelIdeal.Blocks.maskedArr m c,
    Cert.KernelIdeal.Arrays.run m ρ, ?_⟩
  refine (θ_run Cert.ReferenceIdeal.defs _ _).mono (fun _ h c => ?_) (Cert.ReferenceIdeal.ValueP.run (F := Ideal) m' ρ')
  obtain ⟨h34, h19, hargs⟩ := h c
  obtain ⟨a0, a1, a2, a3, a4, a5⟩ := hagree c
  refine ⟨h34.trans ?_, h19.trans ?_, hargs⟩
  · rw [Cert.ReferenceIdeal.ReadP.val_main_v34_eq, a0, a1, a2, a3, a4, a5]
    funext j
    exact (congrArg _ (eq_ix3 j)).trans (Cert.Attn.Ref.out_eq _ _ _ _ _ _ (j 0) (j 1) (j 2))
  · rw [Cert.ReferenceIdeal.ReadP.val_main_v19_eq, a0, a1, a2, a3, a4]
    funext j
    exact (congrArg _ (eq_ix3 j)).trans (Cert.Attn.Ref.masked_eq _ _ _ _ _ (j 0) (j 1) (j 2))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
